-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .i1⟩
  | .hbm, ⟨12, _⟩ => ⟨S4096x4096, .i32⟩
  | .hbm, ⟨13, _⟩ => ⟨S_, .i32⟩
  | .hbm, ⟨14, _⟩ => ⟨S4096, .i32⟩
  | .hbm, ⟨15, _⟩ => ⟨S4096x1, .i32⟩
  | .hbm, ⟨16, _⟩ => ⟨S4096x1, .f32⟩
  | .hbm, ⟨17, _⟩ => ⟨S_, .i32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096x4096, .f32⟩
  | .hbm, ⟨26, _⟩ => ⟨S4096x4096, .i1⟩
  | .hbm, ⟨27, _⟩ => ⟨S4096x1, .f32⟩
  | .hbm, ⟨28, _⟩ => ⟨S4096x4096, .f32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_5 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  natLt_1_32 : 1 < 32
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KRegion0.lean ====
/-
  The first kernel region (the ternarization of the weights, a grid of 16 row blocks of 256 rows), at any float
  instance and at a parameter `V`, the buffer contents the region is entered with.  At every grid point the body
  reads the whole 256×4096 input block and writes the whole output block: one store of the body's value of the
  input block.  So what the point leaves in the output window's buffer is that value, whatever the buffer held;
  the input window's buffer holds the block the pipeline fetched.  The region's invariant is the trivial one
  (the buffers the region does not stage, at anything, and the generator register).
-/
import proofs.«155516_j4320737100212_1_alg».proof.Proof.Gen.Kernel.Launch
import proofs.«155516_j4320737100212_1_alg».proof.Proof.Gen.Kernel.Skeleton
import proofs.«155516_j4320737100212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the point's block, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole block. -/
abbrev r0_0 : Rect S256x4096 := Rect.unit (s := S256x4096) ![0, 0] S256x4096.size inb_S256x4096_S256x4096_0_0

/-- What the body leaves in the output window's buffer: its one store, of the body's value of the input block. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging buffers, the input's at contents `x0` and the output's at anything, runs to the
    continuation holding the input's as it was and the output's at `out0_1 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__ternarize_kernel i arg1 harg1 arg2 harg2) K := by
  simp only [cc0__ternarize_kernel_eq_skeleton]; unfold cc0__ternarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body at point
    `t` the input's buffer at its block and the output's at the body's value of it; the trivial invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRuns1.lean ====
/-
  The second kernel region (the blocked matrix product with the bias added at the end; a grid of 8 × 4 × 4 points,
  the last axis the contraction's four blocks of 1024), at any float instance and at a parameter `V`, the buffer
  contents the region is entered with.  The body keeps a 1024×1024 accumulator in a scratch buffer BETWEEN grid
  points: at a point whose last coordinate is 0 it first stores zeros there; at every point it adds the product of
  the point's blocks to what the scratch holds and stores the sum back; at a point whose last coordinate is 3 it
  then stores the scratch plus the bias row into the output window's buffer, which it leaves untouched at the other
  points (there the window is idle and is not written back).  So there are three cases of the body, told apart by the
  point's position modulo 4; what the scratch holds after a point is a recursion over the points (`outsAt1`), and the
  region's invariant before a point says the scratch holds what the point before left.
-/
import proofs.«155516_j4320737100212_1_alg».proof.Proof.Gen.Kernel.Launch
import proofs.«155516_j4320737100212_1_alg».proof.Proof.Gen.Kernel.Skeleton
import proofs.«155516_j4320737100212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds the point's block, fetched there or not, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "The last coordinate is 0": the body first resets its accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The last coordinate is 3": the body finishes the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the contraction's last block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view
/-- One staging buffer of the output window, through which its contents are stated (the choice does not matter). -/
abbrev VO1_3 : View sig .tc .vmem S1024x1024 .f32 := (Memref.whole cc1_stg3_0 : Memref sig .tc .vmem S1024x1024 .f32).view

/-- A scoped buffer the region does not use, whole at some contents. -/
abbrev anyBuf (c : Dev nD) (b : Ref sig .tc) : sProp 𝕄 :=
  iprop(∃ f : Buf (Elt F) ((c : Thread nD τ).loc b), ((c : Thread nD τ).loc b) ↦{fullShare} f)

/-- The trivial invariant spelt out: the first region's four staging buffers at anything, the accumulator at
    anything, the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg1_1 ∗ (∃ d, owns (c : Thread nD τ) scM1 fullShare d)) ∗ (∃ r, prngReg c r)) := by
  unfold Pipeline.ΦA; rw [scopedRest1_eq]; simp only [scM1, owns_whole]; try rfl

/-! ## The body's three cases, each run once on any memrefs: the stores it leaves are what the run finds -/

set_option maxHeartbeats 1000000 in
/-- Last coordinate 0: the accumulator is reset and then updated; the output window's buffer is handed back untouched. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Last coordinate 1 or 2: the accumulator, at what the point before left (`xs0`), is updated; the output window's
    buffer is handed back untouched. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Last coordinate 3: the accumulator is updated and, with the bias row added, stored into the output window's buffer. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Region1

end Cert.Kernel.Hand

end
-- ==== Proof.KRegion1.lean ====
/-
  The second kernel region, continued: what the accumulator and the output window's buffer hold point by point, the
  region's invariant, its proof data and the body obligation.
-/
import proofs.«155516_j4320737100212_1_alg».proof.Proof.Gen.Kernel.Launch
import proofs.«155516_j4320737100212_1_alg».proof.Proof.Gen.Kernel.Skeleton
import proofs.«155516_j4320737100212_1_alg».proof.Proof.Gen.Kernel.Points
import proofs.«155516_j4320737100212_1_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves -/

/-- Last coordinate 0: no store into the output window (a placeholder nothing consults). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- Its stores into the accumulator cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What it leaves in the accumulator. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Last coordinate 1 or 2: no store into the output window. -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-- Last coordinate 3: the store into the output window covers its buffer. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

/-! ## The accumulation, point by point -/

/-- What the output window's buffer (first component) and the accumulator (second) hold after the body at position `n`:
    the case the position selects, run at the point's memrefs and input blocks, over what the point before left in the
    accumulator. -/
def outsAt1 (c : Dev nD) : (n : ℕ) → n < cfg1.N → Vec F S1024x1024 .f32 × Vec F S1024x1024 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => by have h' : (0 : ℕ) % 4 = 3 := (hcond1_1 ⟨0, hn⟩).mp h; omega) (iblk1 V c 0 ⟨0, hn⟩) (iblk1 V c 1 ⟨0, hn⟩) (iblk1 V c 2 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => by have h' : (0 : ℕ) % 4 = 3 := (hcond1_1 ⟨0, hn⟩).mp h; omega) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => by have h' : (n + 1) % 4 = 3 := (hcond1_1 ⟨n + 1, hn⟩).mp h; omega) (iblk1 V c 0 ⟨n + 1, hn⟩) (iblk1 V c 1 ⟨n + 1, hn⟩) (iblk1 V c 2 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => by have h' : (n + 1) % 4 = 3 := (hcond1_1 ⟨n + 1, hn⟩).mp h; omega) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point whose last coordinate is 0: the reset case. -/
theorem outsAt1_A (c : Dev nD) (t : Fin cfg1.N) (h0 : t.val % 4 = 0) (h1 : ¬t.val % 4 = 3) :
    outsAt1 V c t.val t.isLt =
      (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
       sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a point whose last coordinate is 1 or 2: the update case, over what the point before left. -/
theorem outsAt1_B (c : Dev nD) (t : Fin cfg1.N) (h0 : ¬t.val % 4 = 0) (h1 : ¬t.val % 4 = 3) :
    outsAt1 V c t.val t.isLt =
      (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point whose last coordinate is 3: the finishing case, over what the point before left. -/
theorem outsAt1_C (c : Dev nD) (t : Fin cfg1.N) (h0 : ¬t.val % 4 = 0) (h1 : t.val % 4 = 3) :
    outsAt1 V c t.val t.isLt =
      (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position `n`: at the first point the trivial invariant; afterwards the first region's staging buffers at
    anything, the accumulator at what the point before left, the generator register at some state. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg1_1 ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg1_1 ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg1_1 ∗ owns (c : Thread nD τ) scM1 fullShare ((outsAt1 V c (n - 1) (by omega)).2)) ∗ (∃ r, prngReg c r)) := by
  cases n with
  | zero => exact absurd rfl hz
  | succ n => rfl

/-! ## The proof data -/

/-- The proof data of the second pipeline on core `c`: the arrays as the region finds them; after the body at point
    `t` each input's buffer at its block and the output's at `outsAt1`'s first component; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem live_in0 (c : Dev nD) (t : Fin cfg1.N) : (dat1 V c).leavesExact 0 t = owns (c : Thread nD τ) (ms1_0 t) fullShare (iblk1 V c 0 t) := by
  unfold Dat.leavesExact; rw [liveAt1_0 t, after1_0]
theorem live_in1 (c : Dev nD) (t : Fin cfg1.N) : (dat1 V c).leavesExact 1 t = owns (c : Thread nD τ) (ms1_1 t) fullShare (iblk1 V c 1 t) := by
  unfold Dat.leavesExact; rw [liveAt1_1 t, after1_1]
theorem live_in2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point.  The inputs' buffers hold their blocks; the position modulo 4 says which case the point is
    in; the invariant hands the body the accumulator at what the point before left (at anything before the first
    point) and takes it back at this point's contents; the output window's buffer comes back untouched unless the
    last coordinate is 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [live_in0, live_in1, live_in2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the trivial one back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hN, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end Region1

end Cert.Kernel.Hand

end
-- ==== Proof.KRun.lean ====
/-
  The whole run: @main is the first kernel region, one host operation (the bias reshaped to a row) and the second
  kernel region.  The buffer contents at each boundary are a fold from the launch memory: a region leaves its arrays
  at what its write-backs leave and every other buffer as entered; the host stretch applies its operation.  Each
  region is entered from all the unscoped buffers at the boundary's contents.  The run ends with every unscoped buffer
  at the last boundary's contents, from which both the frame (the arguments as launched) and the result's value are read.
-/
import proofs.«155516_j4320737100212_1_alg».proof.Proof.Gen.Kernel.Launch
import proofs.«155516_j4320737100212_1_alg».proof.Proof.Gen.Kernel.Skeleton
import proofs.«155516_j4320737100212_1_alg».proof.Proof.Gen.Kernel.Points
import proofs.«155516_j4320737100212_1_alg».proof.Proof.KRegion0
import proofs.«155516_j4320737100212_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host stretch writes only the reshaped bias. -/
theorem W2_of_ne (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The result's buffer ends at what the second pipeline's write-backs leave in it. -/
theorem W3_main_v2 (c : Dev nD) : W3 m ρ c (Proc.devRef .tc main_v2) = (dat1 (V2 m ρ) c).arrAt 3 cfg1.N :=
  W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the boundary's contents, left at the next
    boundary's.  Its arrays are split out of the unscoped buffers and put back at what the pipeline leaves; the generator
    register goes into the region's invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's.  Its arrays are split out of the unscoped buffers and put back at what the pipeline leaves; the generator
    register goes into the region's invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the result's buffer named: it ends at what the second pipeline's write-backs leave in its array. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.KIRegion0.lean ====
/-
  The first kernel region (the ternarization of the weights, a grid of 16 row blocks of 256 rows), at any float
  instance and at a parameter `V`, the buffer contents the region is entered with.  At every grid point the body
  reads the whole 256×4096 input block and writes the whole output block: one store of the body's value of the
  input block.  So what the point leaves in the output window's buffer is that value, whatever the buffer held;
  the input window's buffer holds the block the pipeline fetched.  The region's invariant is the trivial one
  (the buffers the region does not stage, at anything, and the generator register).
-/
import proofs.«155516_j4320737100212_1_alg».proof.Proof.Gen.KernelIdeal.Launch
import proofs.«155516_j4320737100212_1_alg».proof.Proof.Gen.KernelIdeal.Skeleton
import proofs.«155516_j4320737100212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds the point's block, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole block. -/
abbrev r0_0 : Rect S256x4096 := Rect.unit (s := S256x4096) ![0, 0] S256x4096.size inb_S256x4096_S256x4096_0_0

/-- What the body leaves in the output window's buffer: its one store, of the body's value of the input block. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging buffers, the input's at contents `x0` and the output's at anything, runs to the
    continuation holding the input's as it was and the output's at `out0_1 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__ternarize_kernel i arg1 harg1 arg2 harg2) K := by
  simp only [cc0__ternarize_kernel_eq_skeleton]; unfold cc0__ternarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body at point
    `t` the input's buffer at its block and the output's at the body's value of it; the trivial invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's run applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRuns1.lean ====
/-
  The second kernel region (the blocked matrix product with the bias added at the end; a grid of 8 × 4 × 4 points,
  the last axis the contraction's four blocks of 1024), at any float instance and at a parameter `V`, the buffer
  contents the region is entered with.  The body keeps a 1024×1024 accumulator in a scratch buffer BETWEEN grid
  points: at a point whose last coordinate is 0 it first stores zeros there; at every point it adds the product of
  the point's blocks to what the scratch holds and stores the sum back; at a point whose last coordinate is 3 it
  then stores the scratch plus the bias row into the output window's buffer, which it leaves untouched at the other
  points (there the window is idle and is not written back).  So there are three cases of the body, told apart by the
  point's position modulo 4; what the scratch holds after a point is a recursion over the points (`outsAt1`), and the
  region's invariant before a point says the scratch holds what the point before left.
-/
import proofs.«155516_j4320737100212_1_alg».proof.Proof.Gen.KernelIdeal.Launch
import proofs.«155516_j4320737100212_1_alg».proof.Proof.Gen.KernelIdeal.Skeleton
import proofs.«155516_j4320737100212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds the point's block, fetched there or not, for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- "The last coordinate is 0": the body first resets its accumulator. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The last coordinate is 3": the body finishes the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the contraction's last block the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x1024 .f32 := Memref.whole cc1_scratch0
abbrev VS1 : View sig .tc .vmem S1024x1024 .f32 := scM1.view
/-- One staging buffer of the output window, through which its contents are stated (the choice does not matter). -/
abbrev VO1_3 : View sig .tc .vmem S1024x1024 .f32 := (Memref.whole cc1_stg3_0 : Memref sig .tc .vmem S1024x1024 .f32).view

/-- A scoped buffer the region does not use, whole at some contents. -/
abbrev anyBuf (c : Dev nD) (b : Ref sig .tc) : sProp 𝕄 :=
  iprop(∃ f : Buf (Elt F) ((c : Thread nD τ).loc b), ((c : Thread nD τ).loc b) ↦{fullShare} f)

/-- The trivial invariant spelt out: the first region's four staging buffers at anything, the accumulator at
    anything, the generator register at some state. -/
theorem PhiA1_eq (c : Dev nD) :
    (Pipeline.ΦA spec1 c : sProp 𝕄)
      = iprop(iprop(anyBuf c cc0_stg0_0 ∗ anyBuf c cc0_stg0_1 ∗ anyBuf c cc0_stg1_0 ∗ anyBuf c cc0_stg1_1 ∗ (∃ d, owns (c : Thread nD τ) scM1 fullShare d)) ∗ (∃ r, prngReg c r)) := by
  unfold Pipeline.ΦA; rw [scopedRest1_eq]; simp only [scM1, owns_whole]; try rfl

/-! ## The body's three cases, each run once on any memrefs: the stores it leaves are what the run finds -/

set_option maxHeartbeats 1000000 in
/-- Last coordinate 0: the accumulator is reset and then updated; the output window's buffer is handed back untouched. -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Last coordinate 1 or 2: the accumulator, at what the point before left (`xs0`), is updated; the output window's
    buffer is handed back untouched. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Last coordinate 3: the accumulator is updated and, with the bias row added, stored into the output window's buffer. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Region1

end Cert.KernelIdeal.Hand

end
-- ==== Proof.KIRegion1.lean ====
/-
  The second kernel region, continued: what the accumulator and the output window's buffer hold point by point, the
  region's invariant, its proof data and the body obligation.
-/
import proofs.«155516_j4320737100212_1_alg».proof.Proof.Gen.KernelIdeal.Launch
import proofs.«155516_j4320737100212_1_alg».proof.Proof.Gen.KernelIdeal.Skeleton
import proofs.«155516_j4320737100212_1_alg».proof.Proof.Gen.KernelIdeal.Points
import proofs.«155516_j4320737100212_1_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves -/

/-- Last coordinate 0: no store into the output window (a placeholder nothing consults). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- Its stores into the accumulator cover it. -/
theorem scover1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What it leaves in the accumulator. -/
def sout1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VS1.read (Elt F) (VS1.writes (Elt F) VS1.junk (kernelRun1_A c i arg3 harg3 arg4 harg4 arg5 harg5 arg6 harg6 arg7 harg7 hc0 hc1 x0 x1 x2).2.1)

/-- Last coordinate 1 or 2: no store into the output window. -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
def sout1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 hc0 hc1 x0 x1 x2 xs0).2.1)

/-- Last coordinate 3: the store into the output window covers its buffer. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
def sout1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 hc0 hc1 x0 x1 x2 xs0).2.1)

/-! ## The accumulation, point by point -/

/-- What the output window's buffer (first component) and the accumulator (second) hold after the body at position `n`:
    the case the position selects, run at the point's memrefs and input blocks, over what the point before left in the
    accumulator. -/
def outsAt1 (c : Dev nD) : (n : ℕ) → n < cfg1.N → Vec F S1024x1024 .f32 × Vec F S1024x1024 .f32
  | 0, hn =>
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => by have h' : (0 : ℕ) % 4 = 3 := (hcond1_1 ⟨0, hn⟩).mp h; omega) (iblk1 V c 0 ⟨0, hn⟩) (iblk1 V c 1 ⟨0, hn⟩) (iblk1 V c 2 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => by have h' : (0 : ℕ) % 4 = 3 := (hcond1_1 ⟨0, hn⟩).mp h; omega) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => by have h' : (n + 1) % 4 = 3 := (hcond1_1 ⟨n + 1, hn⟩).mp h; omega) (iblk1 V c 0 ⟨n + 1, hn⟩) (iblk1 V c 1 ⟨n + 1, hn⟩) (iblk1 V c 2 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => by have h' : (n + 1) % 4 = 3 := (hcond1_1 ⟨n + 1, hn⟩).mp h; omega) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point whose last coordinate is 0: the reset case. -/
theorem outsAt1_A (c : Dev nD) (t : Fin cfg1.N) (h0 : t.val % 4 = 0) (h1 : ¬t.val % 4 = 3) :
    outsAt1 V c t.val t.isLt =
      (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
       sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a point whose last coordinate is 1 or 2: the update case, over what the point before left. -/
theorem outsAt1_B (c : Dev nD) (t : Fin cfg1.N) (h0 : ¬t.val % 4 = 0) (h1 : ¬t.val % 4 = 3) :
    outsAt1 V c t.val t.isLt =
      (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point whose last coordinate is 3: the finishing case, over what the point before left. -/
theorem outsAt1_C (c : Dev nD) (t : Fin cfg1.N) (h0 : ¬t.val % 4 = 0) (h1 : t.val % 4 = 3) :
    outsAt1 V c t.val t.isLt =
      (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position `n`: at the first point the trivial invariant; afterwards the first region's staging buffers at
    anything, the accumulator at what the point before left, the generator register at some state. -/
def PhiS1 (c : Dev nD) : (n : ℕ) → n ≤ cfg1.N → sProp 𝕄
  | 0, _ => Pipeline.ΦA spec1 c
  | n + 1, hn => iprop(iprop(anyBuf c cc0_stg0_0 ∗ anyBuf c cc0_stg0_1 ∗ anyBuf c cc0_stg1_0 ∗ anyBuf c cc0_stg1_1 ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf c cc0_stg0_0 ∗ anyBuf c cc0_stg0_1 ∗ anyBuf c cc0_stg1_0 ∗ anyBuf c cc0_stg1_1 ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(anyBuf c cc0_stg0_0 ∗ anyBuf c cc0_stg0_1 ∗ anyBuf c cc0_stg1_0 ∗ anyBuf c cc0_stg1_1 ∗ owns (c : Thread nD τ) scM1 fullShare ((outsAt1 V c (n - 1) (by omega)).2)) ∗ (∃ r, prngReg c r)) := by
  cases n with
  | zero => exact absurd rfl hz
  | succ n => rfl

/-! ## The proof data -/

/-- The proof data of the second pipeline on core `c`: the arrays as the region finds them; after the body at point
    `t` each input's buffer at its block and the output's at `outsAt1`'s first component; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem live_in0 (c : Dev nD) (t : Fin cfg1.N) : (dat1 V c).leavesExact 0 t = owns (c : Thread nD τ) (ms1_0 t) fullShare (iblk1 V c 0 t) := by
  unfold Dat.leavesExact; rw [liveAt1_0 t, after1_0]
theorem live_in1 (c : Dev nD) (t : Fin cfg1.N) : (dat1 V c).leavesExact 1 t = owns (c : Thread nD τ) (ms1_1 t) fullShare (iblk1 V c 1 t) := by
  unfold Dat.leavesExact; rw [liveAt1_1 t, after1_1]
theorem live_in2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point.  The inputs' buffers hold their blocks; the position modulo 4 says which case the point is
    in; the invariant hands the body the accumulator at what the point before left (at anything before the first
    point) and takes it back at this point's contents; the output window's buffer comes back untouched unless the
    last coordinate is 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [live_in0, live_in1, live_in2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the trivial one back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hN, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end Region1

end Cert.KernelIdeal.Hand

end
-- ==== Proof.KIRun.lean ====
/-
  The whole run: @main is the first kernel region, one host operation (the bias reshaped to a row) and the second
  kernel region.  The buffer contents at each boundary are a fold from the launch memory: a region leaves its arrays
  at what its write-backs leave and every other buffer as entered; the host stretch applies its operation.  Each
  region is entered from all the unscoped buffers at the boundary's contents.  The run ends with every unscoped buffer
  at the last boundary's contents, from which both the frame (the arguments as launched) and the result's value are read.
-/
import proofs.«155516_j4320737100212_1_alg».proof.Proof.Gen.KernelIdeal.Launch
import proofs.«155516_j4320737100212_1_alg».proof.Proof.Gen.KernelIdeal.Skeleton
import proofs.«155516_j4320737100212_1_alg».proof.Proof.Gen.KernelIdeal.Points
import proofs.«155516_j4320737100212_1_alg».proof.Proof.KIRegion0
import proofs.«155516_j4320737100212_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host stretch writes only the reshaped bias. -/
theorem W2_of_ne (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The result's buffer ends at what the second pipeline's write-backs leave in it. -/
theorem W3_main_v2 (c : Dev nD) : W3 m ρ c (Proc.devRef .tc main_v2) = (dat1 (V2 m ρ) c).arrAt 3 cfg1.N :=
  W3_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the boundary's contents, left at the next
    boundary's.  Its arrays are split out of the unscoped buffers and put back at what the pipeline leaves; the generator
    register goes into the region's invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's.  Its arrays are split out of the unscoped buffers and put back at what the pipeline leaves; the generator
    register goes into the region's invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the result's buffer named: it ends at what the second pipeline's write-backs leave in its array. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.KIValue1a.lean ====
/-
  The second kernel region read as values, first part: where its windows' blocks sit in their arrays, and a sum over
  4096 terms as four sums over 1024.  The grid point at position t has coordinates (t / 16, (t / 4) % 4, t % 4): the
  row block of x, the column block of the weights and of the result, and the contraction's block.
-/
import proofs.«155516_j4320737100212_1_alg».proof.Proof.KIRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-! ## Where the blocks sit -/

theorem idx1_0 : ∀ t : Fin cfg1.N, win1_0.index t 0 = t.val / 16 ∧ win1_0.index t 1 = t.val % 4 :=
  (by decide +kernel : ∀ t : Fin grid1.N, win1_0.index t 0 = t.val / 16 ∧ win1_0.index t 1 = t.val % 4)
theorem idx1_1 : ∀ t : Fin cfg1.N, win1_1.index t 0 = t.val % 4 ∧ win1_1.index t 1 = t.val / 4 % 4 :=
  (by decide +kernel : ∀ t : Fin grid1.N, win1_1.index t 0 = t.val % 4 ∧ win1_1.index t 1 = t.val / 4 % 4)
theorem idx1_2 : ∀ t : Fin cfg1.N, win1_2.index t 0 = 0 ∧ win1_2.index t 1 = t.val / 4 % 4 :=
  (by decide +kernel : ∀ t : Fin grid1.N, win1_2.index t 0 = 0 ∧ win1_2.index t 1 = t.val / 4 % 4)
theorem idx1_3 : ∀ t : Fin cfg1.N, win1_3.index t 0 = t.val / 16 ∧ win1_3.index t 1 = t.val / 4 % 4 :=
  (by decide +kernel : ∀ t : Fin grid1.N, win1_3.index t 0 = t.val / 16 ∧ win1_3.index t 1 = t.val / 4 % 4)

section Blocks
variable (V : (c : Dev nD) → (b : Ref sig .tc) → Buf (Elt F) ((c : Thread nD τ).loc b))

/-- The block of x at point `t`: rows from 1024 (t / 16), columns from 1024 (t % 4). -/
theorem iblk1_0_apply (c : Dev nD) (t : Fin cfg1.N) (y : S1024x1024.Idx) (k : S8192x4096.Idx)
    (hk0 : (k 0).val = 1024 * (t.val / 16) + (y 0).val) (hk1 : (k 1).val = 1024 * (t.val % 4) + (y 1).val) :
    (iblk1 V c 0 t : Vec F S1024x1024 .f32) y = (V c main_arg0 : S8192x4096.Idx → Elt F .f32) k := by
  have hi := idx1_0 t
  unfold iblk1
  rw [View.read_apply]
  show V c main_arg0 _ = V c main_arg0 _
  congr 1
  funext a
  apply Fin.ext
  match a with
  | ⟨0, _⟩ => show win1_0.index t 0 * 1024 + 1 * (y 0).val = (k 0).val; rw [hi.1, hk0]; omega
  | ⟨1, _⟩ => show win1_0.index t 1 * 1024 + 1 * (y 1).val = (k 1).val; rw [hi.2, hk1]; omega

/-- The block of the ternarized weights at point `t`: rows from 1024 (t % 4), columns from 1024 ((t / 4) % 4). -/
theorem iblk1_1_apply (c : Dev nD) (t : Fin cfg1.N) (y : S1024x1024.Idx) (k : S4096x4096.Idx)
    (hk0 : (k 0).val = 1024 * (t.val % 4) + (y 0).val) (hk1 : (k 1).val = 1024 * (t.val / 4 % 4) + (y 1).val) :
    (iblk1 V c 1 t : Vec F S1024x1024 .bf16) y = (V c main_v0 : S4096x4096.Idx → Elt F .bf16) k := by
  have hi := idx1_1 t
  unfold iblk1
  rw [View.read_apply]
  show V c main_v0 _ = V c main_v0 _
  congr 1
  funext a
  apply Fin.ext
  match a with
  | ⟨0, _⟩ => show win1_1.index t 0 * 1024 + 1 * (y 0).val = (k 0).val; rw [hi.1, hk0]; omega
  | ⟨1, _⟩ => show win1_1.index t 1 * 1024 + 1 * (y 1).val = (k 1).val; rw [hi.2, hk1]; omega

/-- The block of the bias row at point `t`: columns from 1024 ((t / 4) % 4). -/
theorem iblk1_2_apply (c : Dev nD) (t : Fin cfg1.N) (y : S1x1024.Idx) (k : S1x4096.Idx)
    (hk0 : (k 0).val = (y 0).val) (hk1 : (k 1).val = 1024 * (t.val / 4 % 4) + (y 1).val) :
    (iblk1 V c 2 t : Vec F S1x1024 .f32) y = (V c main_v1 : S1x4096.Idx → Elt F .f32) k := by
  have hi := idx1_2 t
  unfold iblk1
  rw [View.read_apply]
  show V c main_v1 _ = V c main_v1 _
  congr 1
  funext a
  apply Fin.ext
  match a with
  | ⟨0, _⟩ => show win1_2.index t 0 * 1 + 1 * (y 0).val = (k 0).val; rw [hi.1, hk0]; omega
  | ⟨1, _⟩ => show win1_2.index t 1 * 1024 + 1 * (y 1).val = (k 1).val; rw [hi.2, hk1]; omega

end Blocks

/-! ## A sum over 4096 as four sums over 1024 -/

/-- Index `1024 a + b` of the long axis. -/
def kAt (a : Fin 4) (b : Fin 1024) : Fin 4096 := ⟨1024 * a.val + b.val, by have := a.isLt; have := b.isLt; omega⟩

theorem sum_split4 {M : Type*} [AddCommMonoid M] (f : Fin 4096 → M) :
    ∑ k : Fin 4096, f k = ∑ a : Fin 4, ∑ b : Fin 1024, f (kAt a b) := by
  rw [← Fintype.sum_prod_type']
  refine (Fintype.sum_equiv (finProdFinEquiv (m := 4) (n := 1024)) _ _ fun ab => ?_).symm
  obtain ⟨a, b⟩ := ab
  refine congrArg f (Fin.ext ?_)
  show 1024 * a.val + b.val = b.val + 1024 * a.val
  omega

theorem sum_fin4 {M : Type*} [AddCommMonoid M] (g : Fin 4 → M) : ∑ a : Fin 4, g a = g 0 + g 1 + g 2 + g 3 := by
  simp [Fin.sum_univ_four]

end Cert.KernelIdeal.Hand

end
-- ==== Proof.KIPieces.lean ====
/-
  The second kernel region: what each case of the body leaves in the accumulator and in the output window's buffer,
  as a term of the point's input blocks and of what the point before left.  With the last coordinate 0 the accumulator
  is the zero block plus the product of the point's blocks; with 1, 2 or 3 it is what the point before left plus that
  product; with 3 the output window's buffer gets that sum plus the bias row.
-/
import proofs.«155516_j4320737100212_1_alg».proof.Proof.KIRegion1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a rank-2 block, as a constant function. -/
theorem hz : (![0, 0] : Fin 2 → Nat) = fun _ => 0 := funext fun a =>
  match a with
  | ⟨0, _⟩ => rfl
  | ⟨1, _⟩ => rfl

/-- Last coordinate 0: the accumulator holds the zero block plus the product of the point's blocks. -/
theorem soutA_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  try sl_unfold_words
  rw [View.canon_cons_unit_zero (S := S1024x1024) hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

/-- Last coordinate 1 or 2: the accumulator holds what the point before left plus the product of the point's blocks. -/
theorem soutB_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  try sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

/-- Last coordinate 3: the accumulator likewise. -/
theorem soutC_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  try sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

/-- Last coordinate 3: the output window's buffer holds that sum plus the bias row. -/
theorem outC_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

end Cert.KernelIdeal.Hand

end
-- ==== Proof.Spec.lean ====
/-
  The function both programs compute, on the extended reals.

  A weight matrix is ternarized row by row.  For one row `ρ : Fin 4096 → EReal`:
    * `rowSum ρ`  the sum of the absolute values of the row,
    * `delta ρ`   the threshold, the literal 0x39333333 (0.7 / 4096 rounded to f32) times that sum,
    * `mask ρ c`  whether `|ρ c|` exceeds the threshold,
    * `count ρ`   how many entries do (a sum of zeros and ones),
    * `absSum ρ`  the sum of the absolute values that do,
    * `alpha ρ`   the quotient of the two, the row's scale,
    * `tern ρ c`  the sign pattern: 1 above the threshold, -1 below its negation, 0 between,
    * `twRow ρ c` the ternarized entry `tern ρ c * alpha ρ`.
  The result is `x · tw + bias`: entry `(i, j)` is the sum over `k` of `x i k * twRow (row k of w) j`, plus `bias j`.
  Every operation is the extended-real one of the ideal instance; nothing here needs the entries finite.
-/
import Idealize.ShloMosaic.PureOps.Ideal
import Idealize.ShloMosaic.Lib.ValueIdx

noncomputable section

namespace Cert.Tern

open Idealize.ShloMosaic Idealize.ShloMosaic.ValueIdx

/-- The literal zero of the programs, as an extended real. -/
abbrev z32 : EReal := Ideal.ofBits .f32 0x00000000#32

/-- The absolute value of one entry. -/
def absE (v : EReal) : EReal := FloatOps.absf (F := Ideal) (φ := .f32) v

/-- The sum of a row's absolute values (onto the literal zero, as both programs start it). -/
def rowSum (ρ : Fin 4096 → EReal) : EReal := z32 + ∑ c : Fin 4096, absE (ρ c)

/-- The row's threshold. -/
def delta (ρ : Fin 4096 → EReal) : EReal := Ideal.ofBits .f32 0x39333333#32 * rowSum ρ

/-- Whether the entry's absolute value exceeds the threshold. -/
def mask (ρ : Fin 4096 → EReal) (c : Fin 4096) : BitVec 1 := Ideal.cmp .ogt (absE (ρ c)) (delta ρ)

/-- The number of entries above the threshold: each contributes its mask bit, widened and read as an integer. -/
def count (ρ : Fin 4096 → EReal) : EReal := z32 + ∑ c : Fin 4096, ((((mask ρ c).setWidth 32).toInt : ℝ) : EReal)

/-- The sum of the absolute values above the threshold. -/
def absSum (ρ : Fin 4096 → EReal) : EReal := z32 + ∑ c : Fin 4096, Scalar.select (mask ρ c) (absE (ρ c)) z32

/-- The row's scale. -/
def alpha (ρ : Fin 4096 → EReal) : EReal := Ideal.div (absSum ρ) (count ρ)

/-- The sign pattern of an entry against the threshold. -/
def tern (ρ : Fin 4096 → EReal) (c : Fin 4096) : EReal :=
  Scalar.select (Ideal.cmp .ogt (ρ c) (delta ρ)) (Ideal.ofBits .f32 0x3F800000#32)
    (Scalar.select (Ideal.cmp .olt (ρ c) (-(delta ρ))) (Ideal.ofBits .f32 0xBF800000#32) z32)

/-- The ternarized entry. -/
def twRow (ρ : Fin 4096 → EReal) (c : Fin 4096) : EReal := tern ρ c * alpha ρ

/-- Row `r` of a matrix with 4096 columns, whatever its number of rows. -/
def rowOf {R : Nat} (w : (⟨2, ![R, 4096]⟩ : Shape).Idx → EReal) (r : Fin R) : Fin 4096 → EReal := fun c => w (ix2 r c)

/-- The ternarized weights. -/
def tw (w : (⟨2, ![4096, 4096]⟩ : Shape).Idx → EReal) (k j : Fin 4096) : EReal := twRow (rowOf w k) j

/-- The result: the product with the ternarized weights, plus the bias. -/
def out (x : (⟨2, ![8192, 4096]⟩ : Shape).Idx → EReal) (w : (⟨2, ![4096, 4096]⟩ : Shape).Idx → EReal)
    (b : (⟨1, ![4096]⟩ : Shape).Idx → EReal) (i : Fin 8192) (j : Fin 4096) : EReal :=
  (∑ k : Fin 4096, x (ix2 i k) * tw w k j) + b (ix1 j)

/-- The result as an array. -/
def outArr (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => out x w b (i 0) (i 1)

end Cert.Tern

end
-- ==== Proof.PayIdeal.lean ====
/-
  The arithmetic of the two kernel bodies, read at one index on the extended reals.

  The first body ternarizes a block of 256 rows of 4096 entries, row by row; its stored value at (p, q) is the
  ternarized entry of row p at column q.  The second body's three stored values are: the zero block; the
  accumulator plus the product of a 1024 x 1024 block of the left operand with a 1024 x 1024 block of the
  ternarized weights; and the accumulator plus the bias row.
-/
import proofs.«155516_j4320737100212_1_alg».proof.Proof.Spec
import proofs.«155516_j4320737100212_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Tern.Pay

open Idealize.ShloMosaic Idealize.ShloMosaic.ValueIdx Cert.KernelIdeal Cert.KernelIdeal.Gen

/-! ## The matmul body -/

/-- The zero block: every entry is the zero literal, which is 0. -/
theorem pay1_zero (p q : Fin 1024) : (k1_pay1 (F := Ideal)) (ix2 p q) = 0 := by
  unfold k1_pay1
  rw [shapeCast_self]
  exact Ideal.ofBits_zero_f32

/-- The last step: the accumulator plus the bias row, broadcast over the rows. -/
theorem pay3 (acc : Vec Ideal S1024x1024 .f32) (bias : Vec Ideal S1x1024 .f32) (p q : Fin 1024) :
    (k1_pay3 (F := Ideal) acc bias) (ix2 p q) = acc (ix2 p q) + bias (ix2 0 q) := by
  unfold k1_pay3
  rw [shapeCast_self]
  show acc (ix2 p q) + broadcastTo S1024x1024 bias broadcasts_S1x1024_S1024x1024 (ix2 p q) = _
  rw [broadcastTo_1b_ab_apply]

/-- The operand indices of the block product at output (i₀, i₁) and contraction index k are (i₀, k) and (k, i₁):
    one statement per coordinate. -/
theorem lhs_0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem lhs_1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem rhs_0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem rhs_1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The accumulating step: the accumulator plus the sum over the contraction index of the products. -/
theorem pay2 (x : Vec Ideal S1024x1024 .f32) (wb : Vec Ideal S1024x1024 .bf16) (acc : Vec Ideal S1024x1024 .f32)
    (p q : Fin 1024) :
    (k1_pay2 (F := Ideal) x wb acc) (ix2 p q) = acc (ix2 p q) + ∑ k : Fin 1024, x (ix2 p k) * wb (ix2 k q) := by
  unfold k1_pay2
  rw [shapeCast_self, shapeCast_self]
  show acc (ix2 p q) + FloatOps.matmul (F := Ideal) dot_S1024x1024_S1024x1024_S1024x1024_1_0_0_1_n_n none (truncf (F := Ideal) .bf16 x bitsLt_bf16_f32) wb
      (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine congrArg (acc (ix2 p q) + ·) (Finset.sum_congr rfl fun k _ => ?_)
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]
  rfl

/-! ## The ternarizing body -/

theorem absf_at (v : FVec Ideal S256x4096 .f32) (i : S256x4096.Idx) :
    (absf (F := Ideal) v) i = Cert.Tern.absE (v i) := rfl

/-- The sum along the lanes of row p, onto the zero accumulator. -/
theorem red_at (v : FVec Ideal S256x4096 .f32) (h : S256x4096.Reduces [1] S256)
    (hφ : FTy.f32 = FTy.f32 ∨ FTy.f32 = FTy.bf16)
    (hacc : (0x00000000#32 : BitVec FTy.f32.bits) = 0x00000000#32) (p : Fin 256) :
    multiReduction (F := Ideal) .add [1] S256 v 0x00000000#32 h hφ hacc (ix1 p) = ∑ c : Fin 4096, v (ix2 p c) :=
  (Ideal.multiReduction_add_single v _ h hφ hacc (ix1 p)).trans
    (Finset.sum_congr rfl fun c _ => congrArg v (funext fun a => match a with
      | ⟨0, _⟩ => Fin.ext rfl
      | ⟨1, _⟩ => Fin.ext rfl))

/-- A column of 256 entries viewed as a 256 x 1 block. -/
theorem col_at {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 256 x 1 block broadcast along the lanes. -/
theorem bc_at {α : Type} (f : S256x1.Idx → α) (h : S256x1.Broadcasts S256x4096) (p : Fin 256) (q : Fin 4096) :
    broadcastTo S256x4096 f h (ix2 p q) = f (ix2 p (0 : Fin 1)) := by
  refine broadcastTo_apply f h (ix2 p q) (ix2 p (0 : Fin 1)) fun ax => ?_
  match ax with
  | ⟨0, _⟩ =>
    show p.val = if (256 : Nat) = 1 then 0 else p.val
    rw [if_neg (by decide)]
  | ⟨1, _⟩ =>
    show 0 = if (1 : Nat) = 1 then 0 else q.val
    rw [if_pos rfl]

/-- The zero literal is 0: adding it on the left changes nothing, and subtracting from it negates. -/
theorem z32_add (x : EReal) : Cert.Tern.z32 + x = x := by
  rw [show (Cert.Tern.z32 : EReal) = 0 from Ideal.ofBits_zero_f32, zero_add]

theorem z32_sub (x : Ideal .f32) : (FloatOps.ofBits (F := Ideal) .f32 0x00000000#32 : Ideal .f32) - x = -x := by
  rw [show (FloatOps.ofBits (F := Ideal) .f32 0x00000000#32 : Ideal .f32) = 0 from Ideal.ofBits_zero_f32]
  exact zero_sub x

set_option maxRecDepth 8192 in
/-- The ternarized block at (p, q) is the ternarized entry of row p at column q. -/
theorem pay0 (v0 : Vec Ideal S256x4096 .f32) (p : Fin 256) (q : Fin 4096) :
    (k0_pay1 (F := Ideal) v0) (ix2 p q) = Cert.Tern.twRow (Cert.Tern.rowOf v0 p) q := by
  unfold k0_pay1
  simp only [truncf_apply, mulf_apply, select_apply, cmpf_apply, broadcast_apply, bc_at, col_at, subf_apply,
    divf_apply, extui_apply, sitofp_apply]
  rw [red_at _ _ _ _ p, red_at _ _ _ _ p, red_at _ _ _ _ p]
  simp only [truncf_apply, mulf_apply, select_apply, cmpf_apply, broadcast_apply, bc_at, col_at, subf_apply,
    divf_apply, extui_apply, sitofp_apply]
  rw [red_at _ _ _ _ p]
  simp only [absf_at]
  have hS : (∑ c : Fin 4096, absE (v0 (ix2 p c))) = rowSum (rowOf v0 p) := (z32_add _).symm
  rw [hS, z32_sub]
  show _ * Ideal.div _ _ = tern (rowOf v0 p) q * Ideal.div (absSum (rowOf v0 p)) (count (rowOf v0 p))
  refine congrArg₂ (· * ·) rfl (congrArg₂ Ideal.div ?_ ?_)
  · exact (z32_add _).symm
  · exact (z32_add _).symm

end Cert.Tern.Pay

end
-- ==== Proof.KIValue1b.lean ====
/-
  The second kernel region read as values, second part, at the ideal instance.  After the point at position t the
  accumulator holds the sum of the products of the blocks met since the last reset; at a position ≡ 3 (mod 4) the
  output window's buffer holds that sum plus the bias row's block.  Read at an index this is four partial sums over
  1024, which together are the sum over the whole contracted axis; and the blocks written back tile the result.
-/
import proofs.«155516_j4320737100212_1_alg».proof.Proof.KIValue1a
import proofs.«155516_j4320737100212_1_alg».proof.Proof.KIPieces
import proofs.«155516_j4320737100212_1_alg».proof.Proof.PayIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three input blocks at a point, at their literal types. -/
abbrev xb (c : Dev nD) (t : Fin cfg1.N) : Vec Ideal S1024x1024 .f32 := iblk1 V c 0 t
abbrev wb (c : Dev nD) (t : Fin cfg1.N) : Vec Ideal S1024x1024 .bf16 := iblk1 V c 1 t
abbrev bb (c : Dev nD) (t : Fin cfg1.N) : Vec Ideal S1x1024 .f32 := iblk1 V c 2 t
/-- The accumulator after position `n`. -/
abbrev accAt (c : Dev nD) (n : ℕ) (hn : n < cfg1.N) : Vec Ideal S1024x1024 .f32 := (outsAt1 V c n hn).2
/-- One block's contribution to entry (p, q): the product of the point's blocks there. -/
abbrev blkSum (c : Dev nD) (t : Fin cfg1.N) (p q : Fin 1024) : EReal :=
  ∑ k : Fin 1024, (xb V c t) (ix2 p k) * (wb V c t) (ix2 k q)

/-- At a reset point the accumulator is the block product onto zeros. -/
theorem acc_first (c : Dev nD) (t : Fin cfg1.N) (h0 : t.val % 4 = 0) :
    accAt V c t.val t.isLt = k1_pay2 (xb V c t) (wb V c t) (k1_pay1 (F := Ideal)) := by
  have h1 : ¬t.val % 4 = 3 := by omega
  show (outsAt1 V c t.val t.isLt).2 = _
  rw [outsAt1_A V c t h0 h1]
  dsimp only
  exact soutA_eq c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

/-- At any other point it is the block product onto what the point before left. -/
theorem acc_next (c : Dev nD) (t : Fin cfg1.N) (h0 : ¬t.val % 4 = 0) :
    accAt V c t.val t.isLt = k1_pay2 (xb V c t) (wb V c t) (accAt V c (t.val - 1) (Nat.lt_of_le_of_lt (Nat.sub_le _ _) t.isLt)) := by
  show (outsAt1 V c t.val t.isLt).2 = _
  by_cases h1 : t.val % 4 = 3
  · rw [outsAt1_C V c t h0 h1]
    dsimp only
    exact soutC_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact soutB_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At a finishing point the output window's buffer holds the accumulator plus the bias block. -/
theorem out_last (c : Dev nD) (t : Fin cfg1.N) (h1 : t.val % 4 = 3) :
    (outsAt1 V c t.val t.isLt).1 = k1_pay3 (accAt V c t.val t.isLt) (bb V c t) := by
  have h0 : ¬t.val % 4 = 0 := by omega
  show (outsAt1 V c t.val t.isLt).1 = k1_pay3 (outsAt1 V c t.val t.isLt).2 (bb V c t)
  rw [outsAt1_C V c t h0 h1]
  dsimp only
  rw [outC_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
    soutC_eq c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]

/-! ## At an index -/

theorem acc_first_at (c : Dev nD) (n : ℕ) (hn : n < cfg1.N) (h0 : n % 4 = 0) (p q : Fin 1024) :
    accAt V c n hn (ix2 p q) = 0 + blkSum V c ⟨n, hn⟩ p q := by
  have e := acc_first V c ⟨n, hn⟩ h0
  have e' : accAt V c n hn (ix2 p q) = (k1_pay2 (xb V c ⟨n, hn⟩) (wb V c ⟨n, hn⟩) (k1_pay1 (F := Ideal))) (ix2 p q) := congrFun e (ix2 p q)
  refine e'.trans ((Cert.Tern.Pay.pay2 (xb V c ⟨n, hn⟩) (wb V c ⟨n, hn⟩) (k1_pay1 (F := Ideal)) p q).trans ?_)
  rw [Cert.Tern.Pay.pay1_zero p q]

theorem acc_next_at (c : Dev nD) (n : ℕ) (hn : n + 1 < cfg1.N) (h0 : ¬(n + 1) % 4 = 0) (p q : Fin 1024) :
    accAt V c (n + 1) hn (ix2 p q) = accAt V c n (Nat.lt_of_succ_lt hn) (ix2 p q) + blkSum V c ⟨n + 1, hn⟩ p q := by
  have e := acc_next V c ⟨n + 1, hn⟩ h0
  have e' : accAt V c (n + 1) hn (ix2 p q) = (k1_pay2 (xb V c ⟨n + 1, hn⟩) (wb V c ⟨n + 1, hn⟩) (accAt V c n (Nat.lt_of_succ_lt hn))) (ix2 p q) := congrFun e (ix2 p q)
  exact e'.trans (Cert.Tern.Pay.pay2 (xb V c ⟨n + 1, hn⟩) (wb V c ⟨n + 1, hn⟩) (accAt V c n (Nat.lt_of_succ_lt hn)) p q)

/-- The output block at a finishing point, entry by entry: the four blocks' contributions in order, then the bias. -/
theorem out_at (c : Dev nD) (s : ℕ) (hs : s + 3 < cfg1.N) (h0 : s % 4 = 0) (p q : Fin 1024) :
    (outsAt1 V c (s + 3) hs).1 (ix2 p q) =
      ((((0 + blkSum V c ⟨s, by omega⟩ p q) + blkSum V c ⟨s + 1, by omega⟩ p q) + blkSum V c ⟨s + 2, by omega⟩ p q)
        + blkSum V c ⟨s + 3, hs⟩ p q) + (bb V c ⟨s + 3, hs⟩) (ix2 0 q) := by
  have e := out_last V c ⟨s + 3, hs⟩ (by show (s + 3) % 4 = 3; omega)
  have e' : (outsAt1 V c (s + 3) hs).1 (ix2 p q) = (k1_pay3 (accAt V c (s + 3) hs) (bb V c ⟨s + 3, hs⟩)) (ix2 p q) := congrFun e (ix2 p q)
  refine e'.trans ((Cert.Tern.Pay.pay3 (accAt V c (s + 3) hs) (bb V c ⟨s + 3, hs⟩) p q).trans ?_)
  rw [acc_next_at V c (s + 2) hs (by omega) p q, acc_next_at V c (s + 1) (by omega) (by omega) p q,
    acc_next_at V c s (by omega) (by omega) p q, acc_first_at V c s (by omega) h0 p q]

end Cert.KernelIdeal.Hand

end
-- ==== Proof.KIValue1c.lean ====
/-
  The second kernel region read as values, third part: the result array after the region.  Each point at a position
  ≡ 3 (mod 4) writes back its 1024×1024 block of ONE whole-array function of the region's entry contents — the product
  of x with the array the first region left, plus the bias row —, and those blocks tile the result.
-/
import proofs.«155516_j4320737100212_1_alg».proof.Proof.KIValue1b

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, as functions into the extended reals. -/
abbrev Xa (c : Dev nD) : S8192x4096.Idx → EReal := V c main_arg0
abbrev Ta (c : Dev nD) : S4096x4096.Idx → EReal := V c main_v0
abbrev Ba (c : Dev nD) : S1x4096.Idx → EReal := V c main_v1

/-- Entry (r, cq) of the result: row r of x against column cq of the ternarized weights, plus the bias at cq. -/
def g3 (c : Dev nD) (r : Fin 8192) (cq : Fin 4096) : EReal :=
  (∑ k : Fin 4096, Xa V c (ix2 r k) * Ta V c (ix2 k cq)) + Ba V c (ix2 (0 : Fin 1) cq)

/-- The result array as one function of the region's entry contents. -/
def G3 (c : Dev nD) : S8192x4096.Idx → EReal := fun idx => g3 V c ⟨(idx 0).val, idx2_lt0 idx⟩ ⟨(idx 1).val, idx2_lt1 idx⟩

/-- One block's contribution is the slice `1024 a … 1024 a + 1023` of the long sum, `a` the point's contraction block. -/
theorem blk_at (c : Dev nD) (n : ℕ) (hn : n < cfg1.N) (p q : Fin 1024) (r : Fin 8192) (cq : Fin 4096) (a : Fin 4)
    (hr : r.val = 1024 * (n / 16) + p.val) (hc : cq.val = 1024 * (n / 4 % 4) + q.val) (ha : a.val = n % 4) :
    blkSum V c ⟨n, hn⟩ p q = ∑ b : Fin 1024, Xa V c (ix2 r (kAt a b)) * Ta V c (ix2 (kAt a b) cq) := by
  refine Finset.sum_congr rfl fun b _ => ?_
  have e0 : (xb V c ⟨n, hn⟩) (ix2 p b) = Xa V c (ix2 r (kAt a b)) :=
    iblk1_0_apply V c ⟨n, hn⟩ (ix2 p b) (ix2 r (kAt a b)) (by show r.val = 1024 * (n / 16) + p.val; exact hr)
      (by show 1024 * a.val + b.val = 1024 * (n % 4) + b.val; rw [ha])
  have e1 : (wb V c ⟨n, hn⟩) (ix2 b q) = Ta V c (ix2 (kAt a b) cq) :=
    iblk1_1_apply V c ⟨n, hn⟩ (ix2 b q) (ix2 (kAt a b) cq) (by show 1024 * a.val + b.val = 1024 * (n % 4) + b.val; rw [ha])
      (by show cq.val = 1024 * (n / 4 % 4) + q.val; exact hc)
  rw [e0, e1]

/-- An index of the result is in point `t`'s block iff each coordinate is in the block's range on its axis. -/
theorem mem_blk3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- What a finishing point writes back is its block of `G3`. -/
theorem flushed3_eq (c : Dev nD) (t : Fin cfg1.N) (hf : (cfg1.win 3).flush t = true) :
    (dat1 V c).flushed 3 t = ((cfg1.win 3).blk t).view.read (Elt Ideal) (G3 V c) := by
  have h1 : t.val % 4 = 3 := (flush1_3 t).mp hf
  show (cfg1.win 3).cut (grid1.coords t) ((dat1 V c).after 3 t) = _
  rw [after1_3]
  funext (y : S1024x1024.Idx)
  obtain ⟨p, q, rfl⟩ : ∃ (p q : Fin 1024), y = ix2 p q := ⟨y 0, y 1, eq_ix2 y⟩
  obtain ⟨tv, ht⟩ := t
  obtain ⟨s, rfl⟩ : ∃ s, tv = s + 3 := ⟨tv - 3, by have : tv % 4 = 3 := h1; omega⟩
  have hs0 : s % 4 = 0 := by have : (s + 3) % 4 = 3 := h1; omega
  have hN : cfg1.N = 128 := N_1
  have hi := idx1_3 ⟨s + 3, ht⟩
  show (outsAt1 V c (s + 3) ht).1 (ix2 p q) = G3 V c (((cfg1.win 3).blk ⟨s + 3, ht⟩).view.emb (ix2 p q))
  have he0 : ((((cfg1.win 3).blk ⟨s + 3, ht⟩).view.emb (ix2 p q)) 0).val = 1024 * ((s + 3) / 16) + p.val := by
    show win1_3.index ⟨s + 3, ht⟩ 0 * 1024 + 1 * p.val = _
    rw [hi.1]; show (s + 3) / 16 * 1024 + 1 * p.val = _; omega
  have he1 : ((((cfg1.win 3).blk ⟨s + 3, ht⟩).view.emb (ix2 p q)) 1).val = 1024 * ((s + 3) / 4 % 4) + q.val := by
    show win1_3.index ⟨s + 3, ht⟩ 1 * 1024 + 1 * q.val = _
    rw [hi.2]; show (s + 3) / 4 % 4 * 1024 + 1 * q.val = _; omega
  rw [out_at V c s ht hs0 p q]
  unfold G3 g3
  generalize hr : (⟨((((cfg1.win 3).blk ⟨s + 3, ht⟩).view.emb (ix2 p q)) 0).val, idx2_lt0 _⟩ : Fin 8192) = r
  generalize hcq : (⟨((((cfg1.win 3).blk ⟨s + 3, ht⟩).view.emb (ix2 p q)) 1).val, idx2_lt1 _⟩ : Fin 4096) = cq
  have hr' : r.val = 1024 * ((s + 3) / 16) + p.val := by rw [← hr]; exact he0
  have hc' : cq.val = 1024 * ((s + 3) / 4 % 4) + q.val := by rw [← hcq]; exact he1
  rw [sum_split4, sum_fin4, zero_add,
    blk_at V c s (by omega) p q r cq 0 (by omega) (by omega) (by show 0 = s % 4; omega),
    blk_at V c (s + 1) (by omega) p q r cq 1 (by omega) (by omega) (by show 1 = (s + 1) % 4; omega),
    blk_at V c (s + 2) (by omega) p q r cq 2 (by omega) (by omega) (by show 2 = (s + 2) % 4; omega),
    blk_at V c (s + 3) ht p q r cq 3 (by omega) (by omega) (by show 3 = (s + 3) % 4; omega)]
  have eb : (bb V c ⟨s + 3, ht⟩) (ix2 0 q) = Ba V c (ix2 (0 : Fin 1) cq) :=
    iblk1_2_apply V c ⟨s + 3, ht⟩ (ix2 0 q) (ix2 0 cq) rfl (by show cq.val = 1024 * ((s + 3) / 4 % 4) + q.val; exact hc')
  rw [eb]

/-- The result array after the region: the blocks written back tile it. -/
theorem final3 (c : Dev nD) : (dat1 V c).arrAt 3 cfg1.N = G3 V c :=
  (dat1 V c).arrAt_eq_of_cover 3 (G3 V c) (flushed3_eq V c) fun i => by
    have hN : cfg1.N = 128 := N_1
    have h0 : (i 0).val < 8192 := idx2_lt0 i
    have h1 : (i 1).val < 4096 := idx2_lt1 i
    refine ⟨⟨16 * ((i 0).val / 1024) + 4 * ((i 1).val / 1024) + 3, by omega⟩, (flush1_3 _).mpr (by show (16 * ((i 0).val / 1024) + 4 * ((i 1).val / 1024) + 3) % 4 = 3; omega), ?_⟩
    rw [mem_blk3]
    have hi := idx1_3 ⟨16 * ((i 0).val / 1024) + 4 * ((i 1).val / 1024) + 3, by omega⟩
    intro a
    match a with
    | ⟨0, _⟩ =>
      show win1_3.index _ 0 * 1024 ≤ (i 0).val ∧ (i 0).val < win1_3.index _ 0 * 1024 + 1024
      rw [hi.1]; show (16 * ((i 0).val / 1024) + 4 * ((i 1).val / 1024) + 3) / 16 * 1024 ≤ (i 0).val ∧ (i 0).val < (16 * ((i 0).val / 1024) + 4 * ((i 1).val / 1024) + 3) / 16 * 1024 + 1024; omega
    | ⟨1, _⟩ =>
      show win1_3.index _ 1 * 1024 ≤ (i 1).val ∧ (i 1).val < win1_3.index _ 1 * 1024 + 1024
      rw [hi.2]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024; omega

end Cert.KernelIdeal.Hand

end
-- ==== Proof.KIValue0.lean ====
/-
  What the second region finds at its entry, read index by index on the extended reals.

  The first region's grid has 16 points; point t reads rows 256 t … 256 t + 255 of the weights (whole rows) and writes
  back the same rows of its output array, the body's value of the block: row by row the ternarized entries.  Every row
  of the output array lies in the block of the point (row / 256), so after the region the array holds the ternarized
  weights.  The host operation between the regions reshapes the bias to a one-row matrix, and touches nothing else;
  the left operand is as launched.
-/
import proofs.«155516_j4320737100212_1_alg».proof.Proof.KIRun
import proofs.«155516_j4320737100212_1_alg».proof.Proof.PayIdeal
import proofs.«155516_j4320737100212_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

theorem hz0 : (![0, 0] : Fin 2 → Nat) = fun _ => 0 := funext fun a => by fin_cases a <;> rfl

/-- The one whole-buffer store leaves the body's value of the input block. -/
theorem out0_1_eq {F : FTy → Type} [FloatOps F] (x0 : Vec F S256x4096 .f32) : out0_1 x0 = k0_pay1 x0 := by
  unfold out0_1
  rw [View.canon_unit_zero hz0, View.ld_unit_zero (S := S256x4096) hz0]

/-- The block index maps, decided over the grid: point `t`'s blocks are block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

section Final
variable (V : (c : Dev nD) → (b : Ref sig .tc) → Buf (Elt Ideal) ((c : Thread nD τ).loc b))

/-- The input window's block at point `t` is rows `256 t … 256 t + 255` of the weights. -/
theorem iblk0_apply (c : Dev nD) (t : Fin cfg0.N) (x : S256x4096.Idx) (k : S4096x4096.Idx)
    (hk0 : (k 0).val = 256 * t.val + (x 0).val) (hk1 : (k 1).val = (x 1).val) :
    (iblk0 V c 0 t : Vec Ideal S256x4096 .f32) x = (V c main_arg1 : S4096x4096.Idx → EReal) k := by
  obtain ⟨e0, e1, -, -⟩ := idx_facts0 t
  unfold iblk0
  rw [View.read_apply]
  show V c main_arg1 _ = V c main_arg1 _
  congr 1
  funext a
  apply Fin.ext
  match a with
  | ⟨0, _⟩ => show win0_0.index t 0 * 256 + 1 * (x 0).val = (k 0).val; rw [e0, hk0]; omega
  | ⟨1, _⟩ => show win0_0.index t 1 * 4096 + 1 * (x 1).val = (k 1).val; rw [e1, hk1]; omega

/-- What the output array ends holding: the ternarized weights, index by index. -/
abbrev G0 (c : Dev nD) : S4096x4096.Idx → EReal := fun idx => Cert.Tern.tw (V c main_arg1) (idx 0) (idx 1)

/-- WHAT POINT `t` WRITES BACK is block `t` of the ternarized weights: the body ternarizes its 256 rows, each a whole
    row of the weights, and the output block sits on the same rows. -/
theorem flushed0_eq (c : Dev nD) (t : Fin cfg0.N) :
    (dat0 V c).flushed 1 t = ((cfg0.win 1).blk t).view.read (Elt Ideal) (G0 V c) := by
  show (cfg0.win 1).cut (grid0.coords t) ((dat0 V c).after 1 t) = _
  rw [after0_1, out0_1_eq]
  obtain ⟨e0, e1, e2, e3⟩ := idx_facts0 t
  have hN : t.val < 16 := lt_of_lt_of_eq t.isLt (show cfg0.N = 16 from N_0)
  funext y
  obtain ⟨p, q, rfl⟩ : ∃ (p : Fin 256) (q : Fin 4096), y = ix2 p q := ⟨y 0, y 1, eq_ix2 y⟩
  have hp : p.val < 256 := p.isLt
  have hk : 256 * t.val + p.val < 4096 := by omega
  have hemb : ((cfg0.win 1).blk t).view.emb (ix2 p q) = ix2 (⟨256 * t.val + p.val, hk⟩ : Fin 4096) q := by
    funext a; apply Fin.ext
    match a with
    | ⟨0, _⟩ => show win0_1.index t 0 * 256 + 1 * p.val = 256 * t.val + p.val; rw [e2]; omega
    | ⟨1, _⟩ => show win0_1.index t 1 * 4096 + 1 * q.val = q.val; rw [e3]; omega
  have hrow : Cert.Tern.rowOf (iblk0 V c 0 t : Vec Ideal S256x4096 .f32) p
      = Cert.Tern.rowOf (V c main_arg1 : S4096x4096.Idx → EReal) (⟨256 * t.val + p.val, hk⟩ : Fin 4096) :=
    funext fun q' => iblk0_apply V c t (ix2 p q') (ix2 (⟨256 * t.val + p.val, hk⟩ : Fin 4096) q') rfl rfl
  rw [View.read_apply, hemb]
  show (k0_pay1 (F := Ideal) (iblk0 V c 0 t)) (ix2 p q) = Cert.Tern.twRow (Cert.Tern.rowOf (V c main_arg1 : S4096x4096.Idx → EReal) (⟨256 * t.val + p.val, hk⟩ : Fin 4096)) q
  rw [Cert.Tern.Pay.pay0, hrow]

/-- So the output array ends holding the ternarized weights: every row lies in the block of the point `row / 256`. -/
theorem final0 (c : Dev nD) : (dat0 V c).arrAt 1 cfg0.N = G0 V c :=
  (dat0 V c).arrAt_eq_of_cover 1 (G0 V c) (fun t _ => flushed0_eq V c t) fun i => by
    have h0 : (i 0 : Nat) < 4096 := (i 0).isLt
    have h1 : (i 1 : Nat) < 4096 := (i 1).isLt
    have ht : (i 0 : Nat) / 256 < cfg0.N := by rw [show cfg0.N = 16 from N_0]; omega
    obtain ⟨-, -, e2, e3⟩ := idx_facts0 ⟨(i 0 : Nat) / 256, ht⟩
    refine ⟨⟨(i 0 : Nat) / 256, ht⟩, flush0_1 _, ?_⟩
    show i ∈ ((View.whole main_v0).slice (win0_1.rect ⟨(i 0 : Nat) / 256, ht⟩)).set
    rw [View.set_slice_whole, Rect.mem_set_unit]
    intro a
    match a with
    | ⟨0, _⟩ =>
      show win0_1.index ⟨(i 0 : Nat) / 256, ht⟩ 0 * 256 ≤ (i 0 : Nat) ∧ (i 0 : Nat) < win0_1.index ⟨(i 0 : Nat) / 256, ht⟩ 0 * 256 + 256
      rw [e2]; show (i 0 : Nat) / 256 * 256 ≤ (i 0 : Nat) ∧ (i 0 : Nat) < (i 0 : Nat) / 256 * 256 + 256; omega
    | ⟨1, _⟩ =>
      show win0_1.index ⟨(i 0 : Nat) / 256, ht⟩ 1 * 4096 ≤ (i 1 : Nat) ∧ (i 1 : Nat) < win0_1.index ⟨(i 0 : Nat) / 256, ht⟩ 1 * 4096 + 4096
      rw [e3]; omega

end Final

section Boundary
variable (m : (ℓ : Loc nD τ sig) → Buf (Elt Ideal) ℓ) (ρ : Dev nD → PrngReg)

/-- The left operand reaches the second region as launched. -/
theorem V2_main_arg0 (c : Dev nD) : V2 m ρ c main_arg0 = m ((c : Thread nD τ).loc main_arg0) :=
  (W2_of_ne m ρ c main_arg0 (by decide)).trans ((W1_of_ne m ρ c main_arg0 (by decide)).trans rfl)

/-- The bias row at the second region's entry is the bias as launched, read at its column. -/
theorem V2_main_v1_apply (c : Dev nD) (j : Fin 4096) :
    (V2 m ρ c main_v1 : S1x4096.Idx → EReal) (ix2 0 j) = (m ((c : Thread nD τ).loc main_arg2) : S4096.Idx → EReal) (ix1 j) := by
  show StableHlo.after hostOps1 (W1 m ρ c) (Proc.devRef .tc main_v1) (ix2 0 j) = _
  after_results
  rw [W1_of_ne m ρ c main_arg2 (by decide)]
  exact shapeCast_a_1a_apply _ _ 0 j

/-- The second region finds the ternarized weights in the first region's output array. -/
theorem V2_main_v0_apply (c : Dev nD) (k j : Fin 4096) :
    (V2 m ρ c main_v0 : S4096x4096.Idx → EReal) (ix2 k j) = Cert.Tern.tw (m ((c : Thread nD τ).loc main_arg1)) k j := by
  have h : V2 m ρ c main_v0 = G0 (V0 m ρ) c :=
    (W2_of_ne m ρ c main_v0 (by decide)).trans ((W1_arr m ρ c 1).trans (final0 (V0 m ρ) c))
  exact congrFun h (ix2 k j)

end Boundary

end Cert.KernelIdeal.Hand

end
-- ==== Proof.KIValue.lean ====
/-
  The idealized kernel's result: after the whole run the result array holds `x · tw + bias` of the launch contents of
  the three arguments, `tw` the ternarized weights of the specification.  The second region's result array is the
  product of x with the array the first region left, plus the reshaped bias; the first region left the ternarized
  weights; the reshape is the bias itself.
-/
import proofs.«155516_j4320737100212_1_alg».proof.Proof.KIValue1c
import proofs.«155516_j4320737100212_1_alg».proof.Proof.KIValue0
import proofs.«155516_j4320737100212_1_alg».proof.Proof.KIRun
import proofs.«155516_j4320737100212_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array after the run is the specification's function of the arguments as launched. -/
theorem kernel_value (c : Dev nD) :
    (dat1 (V2 m ρ) c).arrAt 3 cfg1.N
      = Cert.Tern.outArr (m ((c : Thread nD τ).loc main_arg0)) (m ((c : Thread nD τ).loc main_arg1)) (m ((c : Thread nD τ).loc main_arg2)) := by
  have hX : Xa (V2 m ρ) c = m ((c : Thread nD τ).loc main_arg0) := V2_main_arg0 m ρ c
  have hT : ∀ k j : Fin 4096, Ta (V2 m ρ) c (ix2 k j) = Cert.Tern.tw (m ((c : Thread nD τ).loc main_arg1)) k j := V2_main_v0_apply m ρ c
  have hB : ∀ j : Fin 4096, Ba (V2 m ρ) c (ix2 (0 : Fin 1) j) = (m ((c : Thread nD τ).loc main_arg2) : S4096.Idx → EReal) (ix1 j) := V2_main_v1_apply m ρ c
  rw [final3 (V2 m ρ) c]
  funext idx
  unfold G3 g3 Cert.Tern.outArr Cert.Tern.out
  rw [hX, hB]
  simp only [hT]
  rfl

/-- THE RUN, READ: the result at the specification's function of the arguments, the arguments unchanged. -/
theorem run : θ_run defs (onTc (τ := τ) (main (F := Ideal))) ⟨m, fun _ => 0, ρ⟩ (fun r => ∀ c : Dev nD,
      r.2.mem ((c.tc : Thread nD τ).loc main_v2)
        = Cert.Tern.outArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_value m ρ c), (h c).2⟩) (run_value (F := Ideal) m ρ)

end Cert.KernelIdeal.Hand

end
-- ==== Proof.RefSpec.lean ====
/-
  The reference program computes the specification.

  Row by row of the weight matrix, each stage of the reference is identified with the specification's quantity for that
  row: the absolute values, their sum, the threshold, the mask, the count, the masked sum, the scale, the sign pattern
  and the ternarized entry.  The one stage that is not read entry by entry is the count: the reference adds the widened
  mask bits as 32-bit integers and converts the total to a float afterwards; 4096 zeros and ones do not overflow, so the
  total read as a signed integer is the sum of the bits' values.  The result is then the contraction of `x` with the
  ternarized weights plus the bias, entry by entry.
-/
import proofs.«155516_j4320737100212_1_alg».proof.Proof.Spec
import proofs.«155516_j4320737100212_1_alg».proof.Proof.Gen.ReferenceIdeal.Read
import Idealize.ShloMosaic.Lib.ValueIdx
import Idealize.ShloMosaic.PureOps.Ideal.Laws
import Idealize.ShloMosaic.Lib.StableHlo.Predicate

noncomputable section

namespace Cert.Tern.Ref

open Cert.ReferenceIdeal Cert.ReferenceIdeal.Read Idealize.ShloMosaic Idealize.ShloMosaic.ValueIdx
open Idealize.ShloMosaic.StableHlo Idealize.ShloMosaic.StableHlo.Predicate Cert.ReferenceIdeal.Gen

/-- The weight matrix's contents. -/
abbrev W := (⟨S4096x4096, .f32⟩ : BufTy).Contents (Elt Ideal)

/-! ## The index maps of the layout operations, by coordinates -/

theorem idx_v1 (k c : Fin 4096) : idx_main_v1 (ix1 k) c = ix2 k c := by
  funext a; match a with | ⟨0, _⟩ => rfl | ⟨1, _⟩ => rfl

theorem idx_v2 (k : Fin 4096) (z : Fin 1) : idx_main_v2 (ix2 k z) = ix1 k := by
  funext a; match a with | ⟨0, _⟩ => rfl

theorem idx_v5 (k c : Fin 4096) : idx_main_v5 (ix2 k c) = ix2 k (0 : Fin 1) := by
  funext a; match a with | ⟨0, _⟩ => rfl | ⟨1, _⟩ => rfl

theorem idx_v9 (k : Fin 4096) (z : Fin 1) : idx_main_v9 (ix2 k z) = ix1 k := by
  funext a; match a with | ⟨0, _⟩ => rfl

theorem idx_v12 (k c : Fin 4096) : idx_main_v12 (ix1 k) c = ix2 k c := by
  funext a; match a with | ⟨0, _⟩ => rfl | ⟨1, _⟩ => rfl

theorem idx_v13 (k : Fin 4096) (z : Fin 1) : idx_main_v13 (ix2 k z) = ix1 k := by
  funext a; match a with | ⟨0, _⟩ => rfl

theorem idx_v15 (k c : Fin 4096) : idx_main_v15 (ix2 k c) = ix2 k (0 : Fin 1) := by
  funext a; match a with | ⟨0, _⟩ => rfl | ⟨1, _⟩ => rfl

theorem idx_v18 (k c : Fin 4096) : idx_main_v18 (ix2 k c) = ix2 k (0 : Fin 1) := by
  funext a; match a with | ⟨0, _⟩ => rfl | ⟨1, _⟩ => rfl

theorem idx_v23 (k c : Fin 4096) : idx_main_v23 (ix2 k c) = ix2 k (0 : Fin 1) := by
  funext a; match a with | ⟨0, _⟩ => rfl | ⟨1, _⟩ => rfl

theorem lidx_v25 (i : Fin 8192) (j k : Fin 4096) : lidx_main_v25 (ix2 i j) k = ix2 i k := by
  funext a; match a with | ⟨0, _⟩ => rfl | ⟨1, _⟩ => rfl

theorem ridx_v25 (i : Fin 8192) (j k : Fin 4096) : ridx_main_v25 (ix2 i j) k = ix2 k j := by
  funext a; match a with | ⟨0, _⟩ => rfl | ⟨1, _⟩ => rfl

theorem idx_v27 (i : Fin 8192) (j : Fin 4096) : idx_main_v26 (idx_main_v27 (ix2 i j)) = ix1 j := by
  funext a; match a with | ⟨0, _⟩ => rfl

/-! ## The row-level stages -/

theorem v0_at (w : W) (k c : Fin 4096) : val_main_v0 (F := Ideal) w (ix2 k c) = absE (rowOf w k c) := rfl

theorem v1_at (w : W) (k : Fin 4096) : val_main_v1 (F := Ideal) w (ix1 k) = rowSum (rowOf w k) := by
  rw [val_main_v1_apply]
  refine congrArg (_ + ·) (Finset.sum_congr rfl fun c _ => ?_)
  rw [idx_v1]; rfl

theorem v4_at (w : W) (k : Fin 4096) : val_main_v4 (F := Ideal) w (ix2 k (0 : Fin 1)) = delta (rowOf w k) := by
  rw [val_main_v4_apply, val_main_v3_apply, val_main_v2_apply, idx_v2, v1_at]; rfl

theorem v6_at (w : W) (k c : Fin 4096) : val_main_v6 (F := Ideal) w (ix2 k c) = mask (rowOf w k) c := by
  rw [val_main_v6_apply, val_main_v5_apply, idx_v5, v4_at]; rfl

/-- The literal integer zero converted to a float is the literal float zero. -/
theorem call0_v1_at (i : S4096x4096.Idx) : val_main_call0_v1 (F := Ideal) i = z32 := by
  rw [val_main_call0_v1_apply, val_main_call0_v0_apply, val_main_c_1_apply]
  show (((0#32 : BitVec 32).toInt : ℝ) : EReal) = Ideal.ofBits .f32 0x00000000#32
  rw [Ideal.ofBits_zero_f32]
  norm_num

theorem v12_at (w : W) (k : Fin 4096) : val_main_v12 (F := Ideal) w (ix1 k) = absSum (rowOf w k) := by
  rw [val_main_v12_apply]
  refine congrArg (_ + ·) (Finset.sum_congr rfl fun c _ => ?_)
  rw [idx_v12, val_main_v11_apply, v6_at, call0_v1_at]; rfl

/-- The real numbers' inclusion in the extended reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A widened bit read as a signed integer is 0 or 1. -/
theorem toInt_setWidth_bit (b : BitVec 1) : (b.setWidth 32).toInt = if b = 1#1 then 1 else 0 := by
  rcases BitVec.eq_zero_or_eq_one b with rfl | rfl <;> rfl

/-- THE COUNT LAW: the integer sum of a row of widened mask bits, read as a signed integer, is the sum of the bits'
    values: 4096 zeros and ones do not overflow a 32-bit word. -/
theorem count_law (m : IVec S4096x4096 1) (k : Fin 4096) :
    (Host.reduce IntOp.addi (extui 32 m natLt_1_32) (constantI S_ 32 0#32) reducesTo_S4096x4096_S4096_d1 h_S_ (ix1 k)).toInt
      = ∑ c : Fin 4096, ((m (ix2 k c)).setWidth 32).toInt := by
  have hn := toNat_reduce_count_cols (n := 4096) (m := 4096) (by norm_num) m natLt_1_32 reducesTo_S4096x4096_S4096_d1 h_S_ (ix1 k)
  have hle : (Finset.univ.filter (fun q : Fin 4096 => m (ij ((ix1 k : S4096.Idx) 0) q) = 1#1)).card ≤ 4096 := by
    simpa using Finset.card_le_univ (Finset.univ.filter (fun q : Fin 4096 => m (ij ((ix1 k : S4096.Idx) 0) q) = 1#1))
  rw [toInt_eq_toNat_of_lt (by rw [hn]; omega), hn, Finset.card_filter]
  push_cast
  refine Finset.sum_congr rfl fun c _ => ?_
  rw [toInt_setWidth_bit]
  rfl

/-- The count: the integer row sum of the widened mask, converted to a float. -/
theorem v10_at (w : W) (k : Fin 4096) : val_main_v10 (F := Ideal) w (ix2 k (0 : Fin 1)) = count (rowOf w k) := by
  rw [val_main_v10_apply, val_main_v9_apply, idx_v9]
  show (((val_main_v8 (F := Ideal) w (ix1 k)).toInt : ℝ) : EReal) = count (rowOf w k)
  unfold val_main_v8 val_main_v7 val_main_c
  rw [count_law, count, show z32 = (0 : EReal) from Ideal.ofBits_zero_f32, zero_add]
  push_cast
  rw [coe_sum]
  refine Finset.sum_congr rfl fun c _ => ?_
  rw [v6_at]

theorem v14_at (w : W) (k : Fin 4096) : val_main_v14 (F := Ideal) w (ix2 k (0 : Fin 1)) = alpha (rowOf w k) := by
  rw [val_main_v14_apply, val_main_v13_apply, idx_v13, v12_at, v10_at]; rfl

/-- The ternarized weights. -/
theorem v24_at (w : W) (k j : Fin 4096) : val_main_v24 (F := Ideal) w (ix2 k j) = tw w k j := by
  rw [val_main_v24_apply, val_main_v23_apply, idx_v23, v14_at, val_main_v22_apply, val_main_v21_apply,
    val_main_v16_apply, val_main_v15_apply, idx_v15, v4_at, val_main_call2_v0_apply, val_main_cst_5_apply,
    val_main_v20_apply, val_main_v19_apply, val_main_v18_apply, idx_v18, val_main_v17_apply, v4_at,
    val_main_call1_v0_apply, val_main_cst_3_apply, val_main_call1_v1_apply, val_main_cst_4_apply]
  rfl

/-- The reference's result, entry by entry, is the specification's. -/
theorem ref_apply (x : (⟨Cert.ReferenceIdeal.S8192x4096, .f32⟩ : BufTy).Contents (Elt Ideal))
    (w : (⟨Cert.ReferenceIdeal.S4096x4096, .f32⟩ : BufTy).Contents (Elt Ideal))
    (b : (⟨Cert.ReferenceIdeal.S4096, .f32⟩ : BufTy).Contents (Elt Ideal)) (i : Fin 8192) (j : Fin 4096) :
    Cert.ReferenceIdeal.Read.val_main_v28 (F := Ideal) x w b (ValueIdx.ix2 i j) = Cert.Tern.out x w b i j := by
  rw [val_main_v28_apply, val_main_v25_apply, val_main_v27_apply, val_main_v26_apply, idx_v27]
  show (∑ k : Fin 4096, x (lidx_main_v25 (ix2 i j) k) * val_main_v24 (F := Ideal) w (ridx_main_v25 (ix2 i j) k)) + b (ix1 j) = _
  refine congrArg (· + b (ix1 j)) (Finset.sum_congr rfl fun k _ => ?_)
  rw [lidx_v25, ridx_v25, v24_at]

end Cert.Tern.Ref

end
-- ==== Proof.lean ====
/-
  The certificate's five claims.

  Both kernel programs are the same text read at two float instances: the first kernel region ternarizes the weights
  (per row: the threshold 0.7/4096 times the row's absolute sum, the count and the sum of the entries above it, their
  quotient as the row's scale, the sign pattern times the scale); one host operation reshapes the bias to a row; the
  second kernel region multiplies x by the ternarized weights, four contraction blocks of 1024 accumulated in a scratch
  buffer carried between grid points, and adds the bias at the last block.  Their frames (every execution ends, nothing
  faults, the arguments end as launched) are one proof, generic in the instance: the two regions' body obligations and
  the launch over the program's three segments.

  The reference's frame is its run with the result dropped.  No operation was rewritten by the idealization, so
  `preserves` is trivial.

  For `algebraic`: at the ideal instance the kernel's result array is `x · tw + bias` of the specification
  (Proof/Spec.lean), read off the run block by block — the four blocks' partial sums are the sum over the whole
  contracted axis, since addition of extended reals is associative and commutative —, and the reference's result is
  the same function, index by index; the one law between them is that the integer sum of 4096 mask bits, converted
  afterwards, is the float sum of the converted bits.  The precondition is not used: no step needs finiteness.
-/
import proofs.«155516_j4320737100212_1_alg».proof.Defs
import proofs.«155516_j4320737100212_1_alg».proof.Proof.Gen.Kernel
import proofs.«155516_j4320737100212_1_alg».proof.Proof.Gen.KernelIdeal
import proofs.«155516_j4320737100212_1_alg».proof.Proof.Gen.ReferenceIdeal
import proofs.«155516_j4320737100212_1_alg».proof.Proof.Gen.ReferenceIdeal.Run
import proofs.«155516_j4320737100212_1_alg».proof.Proof.Gen.ReferenceIdeal.Read
import proofs.«155516_j4320737100212_1_alg».proof.Proof.Gen.Pre_finite_inputs
import proofs.«155516_j4320737100212_1_alg».proof.Proof.KRun
import proofs.«155516_j4320737100212_1_alg».proof.Proof.KIRun
import proofs.«155516_j4320737100212_1_alg».proof.Proof.KIValue
import proofs.«155516_j4320737100212_1_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel's frame. -/
theorem frame_k : Cert.frame_Kernel := fun m ρ _ => Cert.Kernel.Hand.frame (F := Bits) m ρ

/-- The idealized kernel's frame. -/
theorem frame_ki : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance both programs end with the specification's `x · tw + bias` of arguments that agree. -/
theorem algebraic : Cert.algebraic_KernelIdeal_ReferenceIdeal := by
  intro m ρ m' ρ' _ hagree
  refine ⟨fun c => Cert.Tern.outArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v28_eq _ _ _).trans ?_
  rw [(hagree c).1, (hagree c).2.1, (hagree c).2.2]
  funext idx
  obtain ⟨i, j, rfl⟩ : ∃ (i : Fin 8192) (j : Fin 4096), idx = ix2 i j := ⟨idx 0, idx 1, eq_ix2 idx⟩
  exact Cert.Tern.Ref.ref_apply _ _ _ i j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
